-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 33
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageLayer.lean ====
/-
  The mean-aggregator graph-convolution layer as ONE function of its operands, index by index, on the
  extended reals: with `x` the node features [100000, 128], `h` the neighbour means [100000, 128],
  `ws`, `wn` the two weight matrices [128, 128] and `b` the bias [128], entry (p, q) of the result is

      max ((∑ₖ x[p, k] · ws[k, q] + ∑ₖ h[p, k] · wn[k, q]) + b[q]) 0

  with `k` over the 128 input features. Row `p` of the result depends on row `p` of `x` and of `h` only, which
  is why any tiling of the rows computes it tile by tile.
-/
import Idealize.ShloMosaic.PureOps.Ideal
import Idealize.ShloMosaic.Lib.ValueIdx

noncomputable section

namespace Cert.SageLayer

open Idealize.ShloMosaic Idealize.ShloMosaic.ValueIdx

/-- The node-feature arrays' shape, the weight matrices' and the bias's. -/
abbrev Nodes : Shape := ⟨2, ![100000, 128]⟩
abbrev Weights : Shape := ⟨2, ![128, 128]⟩
abbrev Bias : Shape := ⟨1, ![128]⟩

/-- Entry (p, q) of the layer's output: the two row-by-column products added, the bias added, clamped below at zero. -/
def entry (x h : FVec Ideal Nodes .f32) (ws wn : FVec Ideal Weights .f32) (b : FVec Ideal Bias .f32)
    (p : Fin 100000) (q : Fin 128) : EReal :=
  max ((∑ k : Fin 128, x (ix2 p k) * ws (ix2 k q) + ∑ k : Fin 128, h (ix2 p k) * wn (ix2 k q)) + b (ix1 q)) 0

/-- The layer's output array. -/
def out (x h : FVec Ideal Nodes .f32) (ws wn : FVec Ideal Weights .f32) (b : FVec Ideal Bias .f32) :
    FVec Ideal Nodes .f32 :=
  fun i => entry x h ws wn b (i 0) (i 1)

/-- The layer of equal operands is equal. -/
theorem out_congr {x x' h h' : FVec Ideal Nodes .f32} {ws ws' wn wn' : FVec Ideal Weights .f32} {b b' : FVec Ideal Bias .f32}
    (ex : x = x') (eh : h = h') (es : ws = ws') (en : wn = wn') (eb : b = b') :
    out x h ws wn b = out x' h' ws' wn' b' := by
  subst ex eh es en eb; rfl

end Cert.SageLayer

end
-- ==== Proof.RefLayer.lean ====
/-
  The reference computes the layer: its last stage, read at an index (p, q), is the two `dot_general`s' sums over
  the 128 features — the node features against the self weights, the neighbour means against the neighbour weights —
  added, plus the bias broadcast along the rows, clamped below at the zero the ReLU compares with. The neighbour means
  (the gather of source rows, their scatter-add onto destinations, the division by the clamped in-degree) stay the
  unopened stage they are: the layer takes them as an operand.
-/
import proofs.«178815_j7181185319698_1_alg».proof.Proof.Gen.ReferenceIdeal.Read
import proofs.«178815_j7181185319698_1_alg».proof.Proof.SageLayer

noncomputable section

namespace Cert.RefLayer

open Cert.ReferenceIdeal Cert.ReferenceIdeal.Gen Cert.ReferenceIdeal.Read
open Idealize.ShloMosaic Idealize.ShloMosaic.ValueIdx

/-- The reference's result is the layer of the node features, the neighbour means (its stage `%18`), the two weight
    matrices and the bias. -/
theorem result_eq (x0 : FVec Ideal S100000x128 .f32) (x1 x2 : FVec Ideal S128x128 .f32) (x3 : FVec Ideal S128 .f32)
    (x4 x5 : IVec S1600000 32) :
    val_main_v25 (F := Ideal) x0 x1 x2 x3 x4 x5
      = Cert.SageLayer.out x0 (val_main_v18 (F := Ideal) x0 x4 x5) x1 x2 x3 := by
  funext i
  -- the operand indices of the two products at (i, k), and the bias's index, in coordinates
  have el19 : ∀ k : Fin 128, lidx_main_v19 i k = ix2 (i 0) k := fun k =>
    funext fun a => by match a with | ⟨0, _⟩ => rfl | ⟨1, _⟩ => rfl
  have er19 : ∀ k : Fin 128, ridx_main_v19 i k = ix2 k (i 1) := fun k =>
    funext fun a => by match a with | ⟨0, _⟩ => rfl | ⟨1, _⟩ => rfl
  have el20 : ∀ k : Fin 128, lidx_main_v20 i k = ix2 (i 0) k := fun k =>
    funext fun a => by match a with | ⟨0, _⟩ => rfl | ⟨1, _⟩ => rfl
  have er20 : ∀ k : Fin 128, ridx_main_v20 i k = ix2 k (i 1) := fun k =>
    funext fun a => by match a with | ⟨0, _⟩ => rfl | ⟨1, _⟩ => rfl
  have eb : idx_main_v22 (idx_main_v23 i) = ix1 (i 1) :=
    funext fun a => by match a with | ⟨0, _⟩ => rfl
  rw [val_main_v25_apply, val_main_v24_apply, val_main_v21_apply, val_main_v19_apply, val_main_v20_apply,
    val_main_v23_apply, val_main_v22_apply, val_main_call0_v0_apply, val_main_call0_cst_apply]
  simp only [el19, er19, el20, er20, eb, Ideal.maximumf_def, Ideal.addf_def, Ideal.ofBits_def, Ideal.ofBits_zero_f32]
  rfl

end Cert.RefLayer

end
-- ==== Proof.TileEntry.lean ====
/-
  One grid step of the kernel, read at an entry. The body loads a tile of 5000 rows of the node features and of the
  neighbour means, the two weight matrices and the bias row, and stores

      max ((tile_x · ws + tile_h · wn) + bias) 0

  where each product is the matrix unit's, accumulated from zero. On the extended reals the narrowing of the operands
  to bf16 is the identity and a product accumulated from zero is the plain sum over the contracted axis, so entry
  (p, q) of the stored tile is  max ((∑ₖ tile_x[p, k] · ws[k, q] + ∑ₖ tile_h[p, k] · wn[k, q]) + bias[0, q]) 0.
-/
import proofs.«178815_j7181185319698_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.TileEntry

open Cert.KernelIdeal Cert.KernelIdeal.Gen
open Idealize.ShloMosaic Idealize.ShloMosaic.ValueIdx

/-! ## The matrix product's operand indices, axis by axis -/

theorem lhs_axis0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_axis0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_axis1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile times a weight matrix, accumulated from zero, at (p, q): row `p` of the tile against column `q` of the
    matrix, summed over the 128 features. -/
theorem product_entry (l : FVec Ideal S5000x128 .bf16) (r : FVec Ideal S128x128 .bf16) (p : Fin 5000) (q : Fin 128) :
    (matmul dot_S5000x128_S128x128_S5000x128_1_0_0_1_n_n none l r (constant S5000x128 .f32 0x00000000#32) : FVec Ideal S5000x128 .f32) (ix2 p q)
      = ∑ k : Fin 128, (l (ix2 p k) : EReal) * (r (ix2 k q) : EReal) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row spread over the tile's rows reads, at (p, q), the row's entry `q`. -/
theorem bias_entry (v : FVec Ideal S1x128 .f32) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-- Entry (p, q) of the tile the body stores. -/
theorem stored_entry (x h : Vec Ideal S5000x128 .f32) (ws wn : Vec Ideal S128x128 .f32) (b : Vec Ideal S1x128 .f32)
    (p : Fin 5000) (q : Fin 128) :
    k0_pay1 (F := Ideal) x h ws wn b (ix2 p q)
      = max ((∑ k : Fin 128, (x (ix2 p k) : EReal) * (ws (ix2 k q) : EReal)
            + ∑ k : Fin 128, (h (ix2 p k) : EReal) * (wn (ix2 k q) : EReal)) + (b (ix2 (0 : Fin 1) q) : EReal)) 0 := by
  unfold k0_pay1
  rw [maximumf_apply, addf_apply, addf_apply, product_entry, product_entry, bias_entry, broadcast_apply,
    shapeCast_self, shapeCast_self]
  simp only [truncf_apply]
  show max _ (Ideal.ofBits .f32 0x00000000#32) = _
  rw [Ideal.ofBits_zero_f32]

/-- The same at any index of the tile, by its two coordinates. -/
theorem stored_at (x h : Vec Ideal S5000x128 .f32) (ws wn : Vec Ideal S128x128 .f32) (b : Vec Ideal S1x128 .f32)
    (j : S5000x128.Idx) :
    k0_pay1 (F := Ideal) x h ws wn b j
      = max ((∑ k : Fin 128, (x (ix2 (j 0) k) : EReal) * (ws (ix2 k (j 1)) : EReal)
            + ∑ k : Fin 128, (h (ix2 (j 0) k) : EReal) * (wn (ix2 k (j 1)) : EReal)) + (b (ix2 (0 : Fin 1) (j 1)) : EReal)) 0 :=
  (congrArg (k0_pay1 (F := Ideal) x h ws wn b) (eq_ix2 j)).trans (stored_entry x h ws wn b (j 0) (j 1))

end Cert.TileEntry

end
-- ==== Proof.KernelArray.lean ====
/-
  From the tiles to the array. The grid has 20 points; point `t` stages rows 5000·t … 5000·t + 4999 of the node
  features and of the neighbour means, the whole of each weight matrix and the bias row, and writes back rows
  5000·t … 5000·t + 4999 of the output. Entry (p, q) of the tile it writes is the layer's entry (5000·t + p, q) of the
  arrays as the region finds them, because row p of a staged tile is row 5000·t + p of its array; and the 20 tiles
  cover the 100000 rows (row r is in tile r / 5000). So after the run the output array is the layer of those arrays.
-/
import proofs.«178815_j7181185319698_1_alg».proof.Proof.Gen.KernelIdeal.Value
import proofs.«178815_j7181185319698_1_alg».proof.Proof.SageLayer
import proofs.«178815_j7181185319698_1_alg».proof.Proof.TileEntry

noncomputable section

namespace Cert.KernelArray

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem origin : (![0, 0] : Fin 2 → Nat) = fun _ => 0 := funext fun a => by fin_cases a <;> rfl

/-- The layer of the arrays as the region finds them: the node features, the neighbour means the host operations
    before the region left in `%18`, the two weight matrices, and the bias as the one row of `%19`. -/
def layerAtEntry (c : Dev nD) : S100000x128.Idx → Elt Ideal .f32 :=
  Cert.SageLayer.out (V m c main_arg0) (V m c main_v18) (V m c main_arg1) (V m c main_arg2)
    (fun j => V m c main_v19 (ix2 (0 : Fin 1) (j 0)))

/-- The printed index maps over the grid: the three row-tiled windows are at block (t, 0), the three whole operands at
    block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## A block read off an array

An entry of a window's block at a point is the array's entry at, on each axis, the block's index times the block's
extent plus the coordinate inside the block. Stated for ANY array contents: nothing here depends on what the arrays
hold. -/

/-- The node features' window. -/
theorem read_features (X : S100000x128.Idx → EReal) (t : Fin cfg0.N) (y : S5000x128.Idx) (i : S100000x128.Idx)
    (h0 : (i 0).val = win0_0.index t (0 : Fin 2) * 5000 + 1 * (y 0).val)
    (h1 : (i 1).val = win0_0.index t (1 : Fin 2) * 128 + 1 * (y 1).val) :
    ((cfg0.win 0).blk t).view.read (Elt Ideal) X y = X i := by
  show X (((cfg0.win 0).blk t).view.emb y) = X i
  refine congrArg X (funext fun a => Fin.ext ?_)
  match a with
  | ⟨0, _⟩ => exact h0.symm
  | ⟨1, _⟩ => exact h1.symm

/-- The neighbour means' window. -/
theorem read_means (X : S100000x128.Idx → EReal) (t : Fin cfg0.N) (y : S5000x128.Idx) (i : S100000x128.Idx)
    (h0 : (i 0).val = win0_1.index t (0 : Fin 2) * 5000 + 1 * (y 0).val)
    (h1 : (i 1).val = win0_1.index t (1 : Fin 2) * 128 + 1 * (y 1).val) :
    ((cfg0.win 1).blk t).view.read (Elt Ideal) X y = X i := by
  show X (((cfg0.win 1).blk t).view.emb y) = X i
  refine congrArg X (funext fun a => Fin.ext ?_)
  match a with
  | ⟨0, _⟩ => exact h0.symm
  | ⟨1, _⟩ => exact h1.symm

/-- The self weights' window. -/
theorem read_self_weights (X : S128x128.Idx → EReal) (t : Fin cfg0.N) (y : S128x128.Idx) (i : S128x128.Idx)
    (h0 : (i 0).val = win0_2.index t (0 : Fin 2) * 128 + 1 * (y 0).val)
    (h1 : (i 1).val = win0_2.index t (1 : Fin 2) * 128 + 1 * (y 1).val) :
    ((cfg0.win 2).blk t).view.read (Elt Ideal) X y = X i := by
  show X (((cfg0.win 2).blk t).view.emb y) = X i
  refine congrArg X (funext fun a => Fin.ext ?_)
  match a with
  | ⟨0, _⟩ => exact h0.symm
  | ⟨1, _⟩ => exact h1.symm

/-- The neighbour weights' window. -/
theorem read_neighbour_weights (X : S128x128.Idx → EReal) (t : Fin cfg0.N) (y : S128x128.Idx) (i : S128x128.Idx)
    (h0 : (i 0).val = win0_3.index t (0 : Fin 2) * 128 + 1 * (y 0).val)
    (h1 : (i 1).val = win0_3.index t (1 : Fin 2) * 128 + 1 * (y 1).val) :
    ((cfg0.win 3).blk t).view.read (Elt Ideal) X y = X i := by
  show X (((cfg0.win 3).blk t).view.emb y) = X i
  refine congrArg X (funext fun a => Fin.ext ?_)
  match a with
  | ⟨0, _⟩ => exact h0.symm
  | ⟨1, _⟩ => exact h1.symm

/-- The bias row's window. -/
theorem read_bias_row (X : S1x128.Idx → EReal) (t : Fin cfg0.N) (y : S1x128.Idx) (i : S1x128.Idx)
    (h0 : (i 0).val = win0_4.index t (0 : Fin 2) * 1 + 1 * (y 0).val)
    (h1 : (i 1).val = win0_4.index t (1 : Fin 2) * 128 + 1 * (y 1).val) :
    ((cfg0.win 4).blk t).view.read (Elt Ideal) X y = X i := by
  show X (((cfg0.win 4).blk t).view.emb y) = X i
  refine congrArg X (funext fun a => Fin.ext ?_)
  match a with
  | ⟨0, _⟩ => exact h0.symm
  | ⟨1, _⟩ => exact h1.symm

/-! ## A point's tile is the layer's rows -/

/-- For any contents of the five staged arrays: what the body stores at point `t`, from the five blocks read there, is
    at entry (p, q) the layer's entry at the array index the output block puts (p, q) at. -/
theorem tile_is_layer (X H : S100000x128.Idx → EReal) (WS WN : S128x128.Idx → EReal) (B2 : S1x128.Idx → EReal)
    (t : Fin cfg0.N) (j : S5000x128.Idx) :
    k0_pay1 (F := Ideal) (((cfg0.win 0).blk t).view.read (Elt Ideal) X) (((cfg0.win 1).blk t).view.read (Elt Ideal) H)
        (((cfg0.win 2).blk t).view.read (Elt Ideal) WS) (((cfg0.win 3).blk t).view.read (Elt Ideal) WN)
        (((cfg0.win 4).blk t).view.read (Elt Ideal) B2) j
      = Cert.SageLayer.entry X H WS WN (fun q => B2 (ix2 (0 : Fin 1) (q 0))) ((((cfg0.win 5).blk t).view.emb j) 0) ((((cfg0.win 5).blk t).view.emb j) 1) := by
  obtain ⟨e00, e01, e10, e11, e20, e21, e30, e31, e40, e41, e50, e51⟩ := block_indices t
  have r0 : ((((cfg0.win 5).blk t).view.emb j) 0).val = win0_5.index t (0 : Fin 2) * 5000 + 1 * (j 0).val := rfl
  have r1 : ((((cfg0.win 5).blk t).view.emb j) 1).val = win0_5.index t (1 : Fin 2) * 128 + 1 * (j 1).val := rfl
  refine (Cert.TileEntry.stored_at _ _ _ _ _ j).trans ?_
  unfold Cert.SageLayer.entry
  refine congrArg₂ max (congrArg₂ (· + ·) (congrArg₂ (· + ·)
    (Finset.sum_congr rfl fun k _ => congrArg₂ (· * ·)
      (read_features X t (ix2 (j 0) k) (ix2 ((((cfg0.win 5).blk t).view.emb j) 0) k)
        (by show ((((cfg0.win 5).blk t).view.emb j) 0).val = win0_0.index t (0 : Fin 2) * 5000 + 1 * (j 0).val; omega)
        (by show k.val = win0_0.index t (1 : Fin 2) * 128 + 1 * k.val; omega))
      (read_self_weights WS t (ix2 k (j 1)) (ix2 k ((((cfg0.win 5).blk t).view.emb j) 1))
        (by show k.val = win0_2.index t (0 : Fin 2) * 128 + 1 * k.val; omega)
        (by show ((((cfg0.win 5).blk t).view.emb j) 1).val = win0_2.index t (1 : Fin 2) * 128 + 1 * (j 1).val; omega)))
    (Finset.sum_congr rfl fun k _ => congrArg₂ (· * ·)
      (read_means H t (ix2 (j 0) k) (ix2 ((((cfg0.win 5).blk t).view.emb j) 0) k)
        (by show ((((cfg0.win 5).blk t).view.emb j) 0).val = win0_1.index t (0 : Fin 2) * 5000 + 1 * (j 0).val; omega)
        (by show k.val = win0_1.index t (1 : Fin 2) * 128 + 1 * k.val; omega))
      (read_neighbour_weights WN t (ix2 k (j 1)) (ix2 k ((((cfg0.win 5).blk t).view.emb j) 1))
        (by show k.val = win0_3.index t (0 : Fin 2) * 128 + 1 * k.val; omega)
        (by show ((((cfg0.win 5).blk t).view.emb j) 1).val = win0_3.index t (1 : Fin 2) * 128 + 1 * (j 1).val; omega))))
    (read_bias_row B2 t (ix2 (0 : Fin 1) (j 1)) (ix2 (0 : Fin 1) ((((cfg0.win 5).blk t).view.emb j) 1))
      (by show (0 : Nat) = win0_4.index t (0 : Fin 2) * 1 + 1 * 0; omega)
      (by show ((((cfg0.win 5).blk t).view.emb j) 1).val = win0_4.index t (1 : Fin 2) * 128 + 1 * (j 1).val; omega))) rfl

/-! ## What a point writes back -/

/-- Point `t` writes back rows 5000·t … of the layer of the arrays as the region finds them. -/
theorem flushed_eq (c : Dev nD) (t : Fin cfg0.N) :
    (dats m 0 c).flushed 5 t = ((cfg0.win 5).blk t).view.read (Elt Ideal) (layerAtEntry m c) := by
  rw [Cert.KernelIdeal.Value.flushed5]
  unfold out0_5
  rw [View.canon_unit_zero origin]
  simp only [View.ld_unit_zero (S := S5000x128) origin, View.ld_unit_zero (S := S128x128) origin,
    View.ld_unit_zero (S := S1x128) origin]
  funext j
  exact tile_is_layer (V m c main_arg0) (V m c main_v18) (V m c main_arg1) (V m c main_arg2) (V m c main_v19) t j

/-! ## The tiles cover the array -/

/-- An index is in point `t`'s output block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- Row `r` of the output is in the block of point `r / 5000`, which writes back. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  refine ⟨⟨(i 0).val / 5000, hN⟩, flush0_5 _, ?_⟩
  rw [mem_block]
  obtain ⟨e00, e01, e10, e11, e20, e21, e30, e31, e40, e41, e50, e51⟩ := block_indices ⟨(i 0).val / 5000, hN⟩
  have e50' : win0_5.index ⟨(i 0).val / 5000, hN⟩ (0 : Fin 2) = (i 0).val / 5000 := e50
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    omega

/-- After the run the output array is the layer of the arrays as the region found them. -/
theorem final (c : Dev nD) : (dats m 0 c).arrAt 5 cfg0.N = layerAtEntry m c :=
  (dats m 0 c).arrAt_eq_of_cover 5 (layerAtEntry m c) (fun t _ => flushed_eq m c t) covered

end Cert.KernelArray

end
-- ==== Proof.KernelHost.lean ====
/-
  What the host operations before the region leave in the two arrays the kernel stages besides the arguments. The
  neighbour means `%18` are computed by the same operations, in the same order and with the same constants, as the
  reference's stage `%18`: the gather of the source rows, their scatter-add onto the destinations over zeros, divided by
  the in-degree (a scatter-add of ones) clamped below at one. The two programs name their dimension records separately,
  with equal fields, so the two terms are one term. The bias row `%19` is the bias reshaped [128] → [1, 128]: its entry
  (0, q) is the bias's entry q, both at row-major position q.
-/
import proofs.«178815_j7181185319698_1_alg».proof.Proof.Gen.KernelIdeal.Frame
import proofs.«178815_j7181185319698_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The neighbour means the region finds are the reference's stage of the launched node features and edge lists. -/
theorem means_eq (c : Dev nD) :
    (V m c main_v18 : S100000x128.Idx → EReal)
      = Cert.ReferenceIdeal.Read.val_main_v18 (F := Ideal) (m ((c : Thread nD τ).loc main_arg0))
          (m ((c : Thread nD τ).loc main_arg4)) (m ((c : Thread nD τ).loc main_arg5)) := by
  unfold V
  after_results_simp <;> rfl

set_option maxHeartbeats 2000000 in
/-- The bias row the region finds is the launched bias, reshaped. -/
theorem bias_row_eq (c : Dev nD) :
    (V m c main_v19 : S1x128.Idx → EReal)
      = shapeCast S1x128 (m ((c : Thread nD τ).loc main_arg3) : S128.Idx → EReal) shapeCasts_S128_S1x128 := by
  unfold V
  after_results_simp <;> rfl

/-- Its entry (0, q) is the bias's entry q. -/
theorem bias_entry (c : Dev nD) (q : Fin 128) :
    (V m c main_v19 : S1x128.Idx → EReal) (ix2 (0 : Fin 1) q) = m ((c : Thread nD τ).loc main_arg3) (ix1 q) := by
  rw [bias_row_eq]
  exact shapeCast_apply _ _ (ix2 (0 : Fin 1) q) (ix1 q) (by
    rw [Shape.rowMajor_val_one, Shape.rowMajor_val_two]
    show q.val = 0 * 128 + q.val
    omega)

end Cert.KernelHost

end
-- ==== Proof.KernelLayer.lean ====
/-
  The kernel's output in terms of the launched arrays. After the run the output array is the layer of the arrays as the
  region finds them; the three arguments the kernel stages are as launched, the neighbour means are the reference's
  stage of the launched node features and edge lists, and the staged bias row read at (0, q) is the launched bias at q.
  So the kernel ends with the layer of the launched node features, those neighbour means, the two launched weight
  matrices and the launched bias — the function the reference's result is.
-/
import proofs.«178815_j7181185319698_1_alg».proof.Proof.KernelArray
import proofs.«178815_j7181185319698_1_alg».proof.Proof.KernelHost

noncomputable section

namespace Cert.KernelLayer

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer of the launched arrays, with the neighbour means the reference's stage of them. -/
def layerOfLaunch (c : Dev nD) : S100000x128.Idx → Elt Ideal .f32 :=
  Cert.SageLayer.out (m ((c : Thread nD τ).loc main_arg0))
    (Cert.ReferenceIdeal.Read.val_main_v18 (F := Ideal) (m ((c : Thread nD τ).loc main_arg0))
      (m ((c : Thread nD τ).loc main_arg4)) (m ((c : Thread nD τ).loc main_arg5)))
    (m ((c : Thread nD τ).loc main_arg1)) (m ((c : Thread nD τ).loc main_arg2)) (m ((c : Thread nD τ).loc main_arg3))

/-- The staged bias row, read along its one row, is the launched bias. -/
theorem bias_eq (c : Dev nD) :
    (fun j : S128.Idx => (V m c main_v19 : S1x128.Idx → EReal) (ix2 (0 : Fin 1) (j 0)))
      = m ((c : Thread nD τ).loc main_arg3) :=
  funext fun j => (Cert.KernelHost.bias_entry m c (j 0)).trans (congrArg (m ((c : Thread nD τ).loc main_arg3)) (eq_ix1 j).symm)

/-- The layer at the region's entry is the layer of the launch. -/
theorem entry_eq_launch (c : Dev nD) : Cert.KernelArray.layerAtEntry m c = layerOfLaunch m c :=
  Cert.SageLayer.out_congr (V_main_arg0 m c) (Cert.KernelHost.means_eq m c) (V_main_arg1 m c) (V_main_arg2 m c) (bias_eq m c)

/-- Every weakly fair execution of the idealized kernel terminates with the output array at the layer of the launch and
    the arguments unchanged. -/
theorem run : θ_run defs (onTc (τ := τ) (main (F := Ideal))) ⟨m, fun _ => 0, ρ⟩ fun r => ∀ c : Dev nD,
      r.2.mem ((c : Thread nD τ).loc main_v20) = layerOfLaunch m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (Cert.KernelArray.final m c)).trans (entry_eq_launch m c), (h c).2⟩)
    (Cert.KernelIdeal.Value.run_blocks m ρ)

end Cert.KernelLayer

end
-- ==== Proof.lean ====
/-
  The mean-aggregator graph-convolution forward pass: the kernel against its jnp reference, over the extended reals.

  Both programs first compute, with the same host operations, the neighbour means h: the rows of the node features x
  gathered at the edges' sources, scatter-added onto the edges' destinations, divided by the in-degree clamped below at
  one. The reference then evaluates  max ((x · Ws + h · Wn) + b) 0  with two whole matrix products. The kernel
  evaluates the same expression over a grid of 20 tiles of 5000 rows, each product on the matrix unit from a zero
  accumulator with operands narrowed to bf16. On the extended reals the narrowing is the identity and either kind of
  product is the sum over the 128 contracted features of the operands' products, so a tile's entry (p, q) is the whole
  expression's entry (5000·t + p, q), and the tiles cover the rows: both programs end with the layer
  `Cert.SageLayer.out` of the launched arrays (`Cert.KernelLayer.run`, `Cert.RefLayer.result_eq`). No step uses more of
  the extended reals than that sums are sums, so the precondition (finite inputs) is never opened. The ideal pass
  rewrote nothing in the kernel, so there is nothing to preserve; the three frames are the generated runs.
-/
import proofs.«178815_j7181185319698_1_alg».proof.Defs
import proofs.«178815_j7181185319698_1_alg».proof.Proof.Gen.Kernel
import proofs.«178815_j7181185319698_1_alg».proof.Proof.Gen.Kernel.Skeleton
import proofs.«178815_j7181185319698_1_alg».proof.Proof.Gen.Kernel.Launch
import proofs.«178815_j7181185319698_1_alg».proof.Proof.Gen.Kernel.Points
import proofs.«178815_j7181185319698_1_alg».proof.Proof.Gen.Kernel.Frame
import proofs.«178815_j7181185319698_1_alg».proof.Proof.Gen.KernelIdeal
import proofs.«178815_j7181185319698_1_alg».proof.Proof.Gen.KernelIdeal.Skeleton
import proofs.«178815_j7181185319698_1_alg».proof.Proof.Gen.KernelIdeal.Launch
import proofs.«178815_j7181185319698_1_alg».proof.Proof.Gen.KernelIdeal.Points
import proofs.«178815_j7181185319698_1_alg».proof.Proof.Gen.KernelIdeal.Frame
import proofs.«178815_j7181185319698_1_alg».proof.Proof.Gen.ReferenceIdeal
import proofs.«178815_j7181185319698_1_alg».proof.Proof.Gen.Pre_finite_inputs
import proofs.«178815_j7181185319698_1_alg».proof.Proof.Gen.KernelIdeal.Value
import proofs.«178815_j7181185319698_1_alg».proof.Proof.Gen.ReferenceIdeal.Run
import proofs.«178815_j7181185319698_1_alg».proof.Proof.Gen.ReferenceIdeal.Read
import proofs.«178815_j7181185319698_1_alg».proof.Proof.SageLayer
import proofs.«178815_j7181185319698_1_alg».proof.Proof.RefLayer
import proofs.«178815_j7181185319698_1_alg».proof.Proof.TileEntry
import proofs.«178815_j7181185319698_1_alg».proof.Proof.KernelArray
import proofs.«178815_j7181185319698_1_alg».proof.Proof.KernelHost
import proofs.«178815_j7181185319698_1_alg».proof.Proof.KernelLayer
import Idealize.ShloMosaic.Adequacy
import Idealize.ShloMosaic.Init

noncomputable section

namespace Cert.Proof

open Idealize.ShloMosaic Idealize.SL.Sem

/-- The kernel as printed, and read at the extended reals, runs and leaves its arguments as launched. -/
theorem frame_kernel : Cert.frame_Kernel := fun m ρ _ => Cert.Kernel.Gen.frame m ρ
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the layer of the launched arrays: the kernel
    by its tiles, the reference by its last stage read at an index; the agreement carries one launch to the other. -/
theorem algebraic : Cert.algebraic_KernelIdeal_ReferenceIdeal := by
  intro m ρ m' ρ' _ hagree
  refine ⟨fun c => Cert.KernelLayer.layerOfLaunch m c, Cert.KernelLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RefLayer.result_eq]
  unfold Cert.KernelLayer.layerOfLaunch
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
